-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S50000 32) (main_arg1 : IVec S2x800000 32) (main_arg2 : FVec F S50000x128 .f32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000 : Shape := ⟨1, ![50000]⟩
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 115
  | .vmem => 12
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S1x800000, .i32⟩
  | .hbm, ⟨62, _⟩ => ⟨S800000, .i32⟩
  | .hbm, ⟨63, _⟩ => ⟨S1x800000, .i32⟩
  | .hbm, ⟨64, _⟩ => ⟨S800000, .i32⟩
  | .hbm, ⟨65, _⟩ => ⟨S50000, .i32⟩
  | .hbm, ⟨66, _⟩ => ⟨S850000, .i32⟩
  | .hbm, ⟨67, _⟩ => ⟨S850000, .i32⟩
  | .hbm, ⟨68, _⟩ => ⟨S_, .f32⟩
  | .hbm, ⟨69, _⟩ => ⟨S850000, .f32⟩
  | .hbm, ⟨70, _⟩ => ⟨S_, .f32⟩
  | .hbm, ⟨71, _⟩ => ⟨S50000, .f32⟩
  | .hbm, ⟨72, _⟩ => ⟨S850000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S850000, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x128, .f32⟩
  | .hbm, ⟨106, _⟩ => ⟨S850000x1, .f32⟩
  | .hbm, ⟨107, _⟩ => ⟨S850000x128, .f32⟩
  | .hbm, ⟨108, _⟩ => ⟨S850000x128, .f32⟩
  | .hbm, ⟨109, _⟩ => ⟨S_, .f32⟩
  | .hbm, ⟨110, _⟩ => ⟨S50000x128, .f32⟩
  | .hbm, ⟨111, _⟩ => ⟨S850000x1, .i32⟩
  | .hbm, ⟨112, _⟩ => ⟨S50000x128, .f32⟩
  | .hbm, ⟨113, _⟩ => ⟨S1x64, .f32⟩
  | .hbm, ⟨114, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_13 : Ref sig .tc := ⟨.hbm, 87, rfl⟩
abbrev main_v65 : Ref sig .tc := ⟨.hbm, 88, rfl⟩
abbrev main_v66 : Ref sig .tc := ⟨.hbm, 89, rfl⟩
abbrev main_c_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_15 : Ref sig .tc := ⟨.hbm, 97, rfl⟩
abbrev main_v73 : Ref sig .tc := ⟨.hbm, 98, rfl⟩
abbrev main_v74 : Ref sig .tc := ⟨.hbm, 99, rfl⟩
abbrev main_c_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v41) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v85) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v86) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v87) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000 : Shape := ⟨1, ![50000]⟩
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S1x800000, .i32⟩
  | .hbm, ⟨67, _⟩ => ⟨S800000, .i32⟩
  | .hbm, ⟨68, _⟩ => ⟨S1x800000, .i32⟩
  | .hbm, ⟨69, _⟩ => ⟨S800000, .i32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000, .f32⟩
  | .hbm, ⟨101, _⟩ => ⟨S850000, .f32⟩
  | .hbm, ⟨102, _⟩ => ⟨S_, .i32⟩
  | .hbm, ⟨103, _⟩ => ⟨S850000, .i32⟩
  | .hbm, ⟨104, _⟩ => ⟨S850000, .i1⟩
  | .hbm, ⟨105, _⟩ => ⟨S_, .i32⟩
  | .hbm, ⟨106, _⟩ => ⟨S850000, .i32⟩
  | .hbm, ⟨107, _⟩ => ⟨S850000, .i32⟩
  | .hbm, ⟨108, _⟩ => ⟨S850000, .i32⟩
  | .hbm, ⟨109, _⟩ => ⟨S850000x1, .i32⟩
  | .hbm, ⟨110, _⟩ => ⟨S850000x128, .f32⟩
  | .hbm, ⟨111, _⟩ => ⟨S850000x1, .f32⟩
  | .hbm, ⟨112, _⟩ => ⟨S850000x128, .f32⟩
  | .hbm, ⟨113, _⟩ => ⟨S850000x128, .f32⟩
  | .hbm, ⟨114, _⟩ => ⟨S_, .f32⟩
  | .hbm, ⟨115, _⟩ => ⟨S50000x128, .f32⟩
  | .hbm, ⟨116, _⟩ => ⟨S850000x1, .i32⟩
  | .hbm, ⟨117, _⟩ => ⟨S50000x128, .f32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_15 : Ref sig .tc := ⟨.hbm, 102, rfl⟩
abbrev main_v76 : Ref sig .tc := ⟨.hbm, 103, rfl⟩
abbrev main_v77 : Ref sig .tc := ⟨.hbm, 104, rfl⟩
abbrev main_c_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Dense.lean ====
/-
  The two dense layers as whole-array functions over the extended reals, and what each kernel body stores, read at an index.

  `reluAffine A W b` is row i, column j ↦ max (∑ₖ A[i,k]·W[k,j] + b[0,j], 0); `affine A W b` is the same without the maximum, into 64
  columns. Each body loads a block of 2000 rows of `A`, the whole of `W` and the one bias row, rounds the two factors to bf16
  (the identity on extended reals), multiplies into a zero accumulator (a plain sum over the 128 contracted positions), adds the
  bias row broadcast down the rows, and (first layer only) takes the maximum with the zero splat.
-/
import proofs.«176892_j3246995276080_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx

/-- The first layer on whole arrays: row `i 0` of `A` against column `i 1` of `W`, plus the bias row's entry, floored at zero. -/
def reluAffine (A : FVec Ideal S50000x128 .f32) (W : FVec Ideal S128x128 .f32) (b : FVec Ideal S1x128 .f32) : FVec Ideal S50000x128 .f32 :=
  fun i => max ((∑ k : Fin 128, A (ix2 (i 0) k) * W (ix2 k (i 1))) + b (ix2 0 (i 1))) (Ideal.ofBits .f32 0x00000000#32)

/-- The second layer on whole arrays: row `i 0` of `A` against column `i 1` of `W`, plus the bias row's entry. -/
def affine (A : FVec Ideal S50000x128 .f32) (W : FVec Ideal S128x64 .f32) (b : FVec Ideal S1x64 .f32) : FVec Ideal S50000x64 .f32 :=
  fun i => (∑ k : Fin 128, A (ix2 (i 0) k) * W (ix2 k (i 1))) + b (ix2 0 (i 1))

/-! ## The first body's product: the operand indices of the [2000,128] × [128,128] contraction -/

theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Into the zero accumulator the matrix unit's product at (p, q) is the sum over k of x[p,k]·w[k,q]. -/
theorem productA_apply (x : FVec Ideal S2000x128 .bf16) (w : FVec Ideal S128x128 .bf16) (p : Fin 2000) (q : Fin 128) :
    matmul (F := Ideal) dot_S2000x128_S128x128_S2000x128_1_0_0_1_n_n none x w (constant S2000x128 .f32 0x00000000#32) (ix2 p q)
      = ∑ k : Fin 128, x (ix2 p k) * w (ix2 k q) := by
  show FloatOps.matmul dot_S2000x128_S128x128_S2000x128_1_0_0_1_n_n none x w (constant (F := Ideal) S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- The bias row broadcast down 2000 rows reads its own column. -/
theorem biasA_apply (x2 : FVec Ideal S1x128 .f32) (p : Fin 2000) (q : Fin 128) :
    broadcastTo S2000x128 x2 broadcasts_S1x128_S2000x128 (ix2 p q) = x2 (ix2 0 q) :=
  broadcastTo_apply x2 broadcasts_S1x128_S2000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- What the first body stores, at row p and column q of its block. -/
theorem payA_apply (x0 : Vec Ideal S2000x128 .f32) (x1 : Vec Ideal S128x128 .f32) (x2 : Vec Ideal S1x128 .f32) (p : Fin 2000) (q : Fin 128) :
    k0_pay1 (F := Ideal) x0 x1 x2 (ix2 p q)
      = max ((∑ k : Fin 128, x0 (ix2 p k) * x1 (ix2 k q)) + x2 (ix2 0 q)) (Ideal.ofBits .f32 0x00000000#32) := by
  unfold k0_pay1
  rw [shapeCast_self, shapeCast_self]
  show max (matmul (F := Ideal) dot_S2000x128_S128x128_S2000x128_1_0_0_1_n_n none (truncf .bf16 x0 bitsLt_bf16_f32) (truncf .bf16 x1 bitsLt_bf16_f32) (constant S2000x128 .f32 0x00000000#32) (ix2 p q)
      + broadcastTo S2000x128 x2 broadcasts_S1x128_S2000x128 (ix2 p q)) (Ideal.ofBits .f32 0x00000000#32) = _
  rw [productA_apply, biasA_apply]
  rfl

/-! ## The second body's product: the operand indices of the [2000,128] × [128,64] contraction -/

theorem lhsB_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhsB_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhsB_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhsB_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Into the zero accumulator the matrix unit's product at (p, q) is the sum over k of x[p,k]·w[k,q]. -/
theorem productB_apply (x : FVec Ideal S2000x128 .bf16) (w : FVec Ideal S128x64 .bf16) (p : Fin 2000) (q : Fin 64) :
    matmul (F := Ideal) dot_S2000x128_S128x64_S2000x64_1_0_0_1_n_n none x w (constant S2000x64 .f32 0x00000000#32) (ix2 p q)
      = ∑ k : Fin 128, x (ix2 p k) * w (ix2 k q) := by
  show FloatOps.matmul dot_S2000x128_S128x64_S2000x64_1_0_0_1_n_n none x w (constant (F := Ideal) S2000x64 .f32 0x00000000#32) (ix2 p q) = _
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhsB_0 _ _
    | ⟨1, _⟩ => exact (lhsB_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-- The bias row broadcast down 2000 rows reads its own column. -/
theorem biasB_apply (x2 : FVec Ideal S1x64 .f32) (p : Fin 2000) (q : Fin 64) :
    broadcastTo S2000x64 x2 broadcasts_S1x64_S2000x64 (ix2 p q) = x2 (ix2 0 q) :=
  broadcastTo_apply x2 broadcasts_S1x64_S2000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- What the second body stores, at row p and column q of its block. -/
theorem payB_apply (x0 : Vec Ideal S2000x128 .f32) (x1 : Vec Ideal S128x64 .f32) (x2 : Vec Ideal S1x64 .f32) (p : Fin 2000) (q : Fin 64) :
    k1_pay1 (F := Ideal) x0 x1 x2 (ix2 p q)
      = (∑ k : Fin 128, x0 (ix2 p k) * x1 (ix2 k q)) + x2 (ix2 0 q) := by
  unfold k1_pay1
  rw [shapeCast_self, shapeCast_self]
  show matmul (F := Ideal) dot_S2000x128_S128x64_S2000x64_1_0_0_1_n_n none (truncf .bf16 x0 bitsLt_bf16_f32) (truncf .bf16 x1 bitsLt_bf16_f32) (constant S2000x64 .f32 0x00000000#32) (ix2 p q)
      + broadcastTo S2000x64 x2 broadcasts_S1x64_S2000x64 (ix2 p q) = _
  rw [productB_apply, biasB_apply]
  rfl

end Cert.KernelIdeal.Dense

end
-- ==== Proof.HiddenLayer.lean ====
/-
  The first region's result array as ONE function of the arrays the region finds.

  The grid has 25 points; point t stages rows 2000·t … 2000·t+1999 of the activations (all 128 columns), the whole weight matrix and the
  one bias row, and writes the same 2000 rows of the result back. So what point t writes back is block t of `reluAffine A W b`, the 25
  blocks tile the 50000 rows, and after the last point the whole result array is `reluAffine A W b`.
-/
import proofs.«176892_j3246995276080_1_alg».proof.Proof.Gen.KernelIdeal.Frame
import proofs.«176892_j3246995276080_1_alg».proof.Proof.Dense
import Idealize.ShloMosaic.Lib.Pipeline.Value

set_option maxRecDepth 16384

noncomputable section

namespace Cert.KernelIdeal.HiddenLayer

open Cert.KernelIdeal Cert.KernelIdeal.Gen Cert.KernelIdeal.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: block row t of the activations and of the result, the weights and the bias whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored entry against the whole-array function: if the staged activations' row is row `i 0` of `A`, the staged weights and
    bias are `W` and `b`, and the column is `i 1`, the body's value at `j` is `reluAffine A W b` at `i`. -/
theorem entry (A : FVec Ideal S50000x128 .f32) (W : FVec Ideal S128x128 .f32) (b : FVec Ideal S1x128 .f32)
    (x0 : Vec Ideal S2000x128 .f32) (x1 : Vec Ideal S128x128 .f32) (x2 : Vec Ideal S1x128 .f32)
    (i : S50000x128.Idx) (j : S2000x128.Idx)
    (h0 : ∀ k : Fin 128, x0 (ix2 (j 0) k) = A (ix2 (i 0) k))
    (h1 : ∀ y, x1 y = W y) (h2 : ∀ y, x2 y = b y) (hcol : (i 1).val = (j 1).val) :
    k0_pay1 (F := Ideal) x0 x1 x2 j = reluAffine A W b i := by
  obtain ⟨p, q, rfl⟩ : ∃ (p : Fin 2000) (q : Fin 128), j = ix2 p q := ⟨j 0, j 1, eq_ix2 j⟩
  have hq : i 1 = q := Fin.ext hcol
  rw [payA_apply]
  unfold reluAffine
  rw [hq]
  simp only [h1, h2]
  refine congrArg (fun s => max (s + b (ix2 0 q)) (Ideal.ofBits .f32 0x00000000#32)) (Finset.sum_congr rfl fun k _ => ?_)
  have hk : x0 (ix2 p k) = A (ix2 (i 0) k) := h0 k
  rw [hk]

/-- WHAT POINT t WRITES BACK is block t of `reluAffine` of the arrays as the region finds them. -/
theorem flushed_eq (c : Dev nD) (t : Fin cfg0.N) :
    (dat0 V c).flushed 3 t = ((cfg0.win 3).blk t).view.read (Elt Ideal) (reluAffine (V c main_v41) (V c main_arg3) (V c main_v42)) := by
  show (cfg0.win 3).cut (grid0.coords t) ((dat0 V c).after 3 t) = _
  rw [after0_3]
  unfold out0_3
  rw [View.canon_unit_zero origin]
  simp only [View.ld_unit_zero (S := S2000x128) origin, View.ld_unit_zero (S := S128x128) origin, View.ld_unit_zero (S := S1x128) origin]
  obtain ⟨e00, e01, e10, e11, e20, e21, e30, e31⟩ := block_indices t
  funext j
  show k0_pay1 (F := Ideal) (iblk0 V c 0 t) (iblk0 V c 1 t) (iblk0 V c 2 t) j
      = reluAffine (V c main_v41) (V c main_arg3) (V c main_v42) (((cfg0.win 3).blk t).view.emb j)
  refine entry (V c main_v41) (V c main_arg3) (V c main_v42) (iblk0 V c 0 t) (iblk0 V c 1 t) (iblk0 V c 2 t)
    (((cfg0.win 3).blk t).view.emb j) j ?_ ?_ ?_ ?_
  · intro k
    show V c main_v41 (((cfg0.win 0).blk t).view.emb (ix2 (j 0) k)) = V c main_v41 (ix2 ((((cfg0.win 3).blk t).view.emb j) 0) k)
    refine congrArg _ (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  · intro y
    show V c main_arg3 (((cfg0.win 1).blk t).view.emb y) = V c main_arg3 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · intro y
    show V c main_v42 (((cfg0.win 2).blk t).view.emb y) = V c main_v42 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (1 : Fin 2) * 128 + 1 * (j 1).val = (j 1).val; omega

/-- An index of the result array is in point t's block iff each coordinate is in the block's range on its axis. -/
theorem mem_block (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v43).slice (win0_3.rect t)).set ↔ _
  rw [View.set_slice_whole, Rect.mem_set_unit]
  exact Iff.rfl

/-- Every row lies in the block of the point numbered by the row's quotient by 2000. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 := ⟨⟨(i 0).val / 2000, by show (i 0).val / 2000 < 25; omega⟩, rfl⟩
  obtain ⟨-, -, -, -, -, -, e30, e31⟩ := block_indices t
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE RESULT ARRAY after the region: `reluAffine` of the activations, the weights and the bias row as the region finds them. -/
theorem final (c : Dev nD) : (dat0 V c).arrAt 3 cfg0.N = reluAffine (V c main_v41) (V c main_arg3) (V c main_v42) :=
  (dat0 V c).arrAt_eq_of_cover 3 _ (fun t _ => flushed_eq V c t) covered

end Cert.KernelIdeal.HiddenLayer

end
-- ==== Proof.OutputLayer.lean ====
/-
  The second region's result array as ONE function of the arrays the region finds.

  Again 25 points; point t stages rows 2000·t … 2000·t+1999 of the aggregated hidden features (all 128 columns), the whole 128 × 64
  weight matrix and the one bias row of 64, and writes the same 2000 rows of the 64-column result back. What point t writes back is
  block t of `affine A W b`, the blocks tile the 50000 rows, and after the last point the whole result array is `affine A W b`.
-/
import proofs.«176892_j3246995276080_1_alg».proof.Proof.Gen.KernelIdeal.Frame
import proofs.«176892_j3246995276080_1_alg».proof.Proof.Dense
import Idealize.ShloMosaic.Lib.Pipeline.Value

set_option maxRecDepth 16384

noncomputable section

namespace Cert.KernelIdeal.OutputLayer

open Cert.KernelIdeal Cert.KernelIdeal.Gen Cert.KernelIdeal.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: block row t of the activations and of the result, the weights and the bias whole. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One stored entry against the whole-array function: if the staged activations' row is row `i 0` of `A`, the staged weights and
    bias are `W` and `b`, and the column is `i 1`, the body's value at `j` is `affine A W b` at `i`. -/
theorem entry (A : FVec Ideal S50000x128 .f32) (W : FVec Ideal S128x64 .f32) (b : FVec Ideal S1x64 .f32)
    (x0 : Vec Ideal S2000x128 .f32) (x1 : Vec Ideal S128x64 .f32) (x2 : Vec Ideal S1x64 .f32)
    (i : S50000x64.Idx) (j : S2000x64.Idx)
    (h0 : ∀ k : Fin 128, x0 (ix2 (j 0) k) = A (ix2 (i 0) k))
    (h1 : ∀ y, x1 y = W y) (h2 : ∀ y, x2 y = b y) (hcol : (i 1).val = (j 1).val) :
    k1_pay1 (F := Ideal) x0 x1 x2 j = affine A W b i := by
  obtain ⟨p, q, rfl⟩ : ∃ (p : Fin 2000) (q : Fin 64), j = ix2 p q := ⟨j 0, j 1, eq_ix2 j⟩
  have hq : i 1 = q := Fin.ext hcol
  rw [payB_apply]
  unfold affine
  rw [hq]
  simp only [h1, h2]
  refine congrArg (fun s => s + b (ix2 0 q)) (Finset.sum_congr rfl fun k _ => ?_)
  have hk : x0 (ix2 p k) = A (ix2 (i 0) k) := h0 k
  rw [hk]

/-- WHAT POINT t WRITES BACK is block t of `affine` of the arrays as the region finds them. -/
theorem flushed_eq (c : Dev nD) (t : Fin cfg1.N) :
    (dat1 V c).flushed 3 t = ((cfg1.win 3).blk t).view.read (Elt Ideal) (affine (V c main_v85) (V c main_arg5) (V c main_v86)) := by
  show (cfg1.win 3).cut (grid1.coords t) ((dat1 V c).after 3 t) = _
  rw [after1_3]
  unfold out1_3
  rw [View.canon_unit_zero origin]
  simp only [View.ld_unit_zero (S := S2000x128) origin, View.ld_unit_zero (S := S128x64) origin, View.ld_unit_zero (S := S1x64) origin]
  obtain ⟨e00, e01, e10, e11, e20, e21, e30, e31⟩ := block_indices t
  funext j
  show k1_pay1 (F := Ideal) (iblk1 V c 0 t) (iblk1 V c 1 t) (iblk1 V c 2 t) j
      = affine (V c main_v85) (V c main_arg5) (V c main_v86) (((cfg1.win 3).blk t).view.emb j)
  refine entry (V c main_v85) (V c main_arg5) (V c main_v86) (iblk1 V c 0 t) (iblk1 V c 1 t) (iblk1 V c 2 t)
    (((cfg1.win 3).blk t).view.emb j) j ?_ ?_ ?_ ?_
  · intro k
    show V c main_v85 (((cfg1.win 0).blk t).view.emb (ix2 (j 0) k)) = V c main_v85 (ix2 ((((cfg1.win 3).blk t).view.emb j) 0) k)
    refine congrArg _ (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  · intro y
    show V c main_arg5 (((cfg1.win 1).blk t).view.emb y) = V c main_arg5 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 64 + 1 * (y 1).val = (y 1).val; omega
  · intro y
    show V c main_v86 (((cfg1.win 2).blk t).view.emb y) = V c main_v86 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega
  · show win1_3.index t (1 : Fin 2) * 64 + 1 * (j 1).val = (j 1).val; omega

/-- An index of the result array is in point t's block iff each coordinate is in the block's range on its axis. -/
theorem mem_block (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v87).slice (win1_3.rect t)).set ↔ _
  rw [View.set_slice_whole, Rect.mem_set_unit]
  exact Iff.rfl

/-- Every row lies in the block of the point numbered by the row's quotient by 2000. -/
theorem covered (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ : ∃ t : Fin cfg1.N, t.val = (i 0).val / 2000 := ⟨⟨(i 0).val / 2000, by show (i 0).val / 2000 < 25; omega⟩, rfl⟩
  obtain ⟨-, -, -, -, -, -, e30, e31⟩ := block_indices t
  refine ⟨t, flush1_3 t, ?_⟩
  rw [mem_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- THE RESULT ARRAY after the region: `affine` of the activations, the weights and the bias row as the region finds them. -/
theorem final (c : Dev nD) : (dat1 V c).arrAt 3 cfg1.N = affine (V c main_v85) (V c main_arg5) (V c main_v86) :=
  (dat1 V c).arrAt_eq_of_cover 3 _ (fun t _ => flushed_eq V c t) covered

end Cert.KernelIdeal.OutputLayer

end
-- ==== Proof.Aggregate.lean ====
/-
  The graph aggregation both programs apply, over the kernel program's printed names: one function of the edge list and a feature array.
-/
import proofs.«176892_j3246995276080_1_alg».proof.Proof.Gen.KernelIdeal

noncomputable section

namespace Cert.KernelIdeal.Aggregate

open Cert.KernelIdeal Cert.KernelIdeal.Gen Idealize.ShloMosaic

variable {F : FTy → Type} [FloatOps F]

/-- Self-loops and symmetric degree normalisation, then the neighbourhood sum: with the edge list's two rows extended by every node's own
    index (`src`, `dst`), `deg` counts the edges arriving at each node, `dinv` is 1/√max(deg, 1), an edge's weight is
    `dinv[src]·dinv[dst]` (a negative index wraps by 50000 before each gather), and row v of the result is the sum over the edges
    arriving at v of that weight times the source's row of `X`. Every operation is the host's own; none is opened here. -/
def aggregate (E : (⟨S2x800000, .i32⟩ : BufTy).Contents (Elt F)) (X : (⟨S50000x128, .f32⟩ : BufTy).Contents (Elt F)) :
    (⟨S50000x128, .f32⟩ : BufTy).Contents (Elt F) :=
  let ids : (⟨S50000, .i32⟩ : BufTy).Contents (Elt F) := iotaInDim S50000 32 0
  let src : (⟨S850000, .i32⟩ : BufTy).Contents (Elt F) :=
    concatenate S850000 0 [⟨S800000, shapeCast _ (extractStridedSlice S1x800000 ![0, 0] E slices_S2x800000_S1x800000_0_0) shapeCasts_S1x800000_S800000⟩, ⟨S50000, ids⟩] concatenates_S800000_S50000_S850000_d0
  let dst : (⟨S850000, .i32⟩ : BufTy).Contents (Elt F) :=
    concatenate S850000 0 [⟨S800000, shapeCast _ (extractStridedSlice S1x800000 ![1, 0] E slices_S2x800000_S1x800000_1_0) shapeCasts_S1x800000_S800000⟩, ⟨S50000, ids⟩] concatenates_S800000_S50000_S850000_d0
  let wrap : (⟨S850000, .i32⟩ : BufTy).Contents (Elt F) → (⟨S850000x1, .i32⟩ : BufTy).Contents (Elt F) := fun v =>
    broadcastInDim S850000x1 ![0] bcast_S850000_S850000x1_0
      (select (cmpi .slt v (broadcastInDim S850000 ![] bcast_S_S850000 (constantI S_ 32 0#32))) (addi v (broadcastInDim S850000 ![] bcast_S_S850000 (constantI S_ 32 50000#32))) v)
  let deg : (⟨S50000, .f32⟩ : BufTy).Contents (Elt F) :=
    Host.scatterAdd scatter_S50000_S850000x1_S850000_n_0_0_1 (broadcastInDim S50000 ![] bcast_S_S50000 (constant S_ .f32 0x00000000#32))
      (broadcastInDim S850000x1 ![0] bcast_S850000_S850000x1_0 dst) (broadcastInDim S850000 ![] bcast_S_S850000 (constant S_ .f32 0x3F800000#32))
  let dinv : (⟨S50000, .f32⟩ : BufTy).Contents (Elt F) :=
    Host.rsqrt (maximumf deg (broadcastInDim S50000 ![] bcast_S_S50000 (constant S_ .f32 0x3F800000#32)))
  let norm : (⟨S850000, .f32⟩ : BufTy).Contents (Elt F) :=
    mulf (Host.gather gather_S50000_S850000x1_S850000_n_0_n_n_0_1_1 dinv (wrap src)) (Host.gather gather_S50000_S850000x1_S850000_n_0_n_n_0_1_1 dinv (wrap dst))
  let msg : (⟨S850000x128, .f32⟩ : BufTy).Contents (Elt F) :=
    mulf (Host.gather gather_S50000x128_S850000x1_S850000x128_1_0_n_n_0_1_1128 X (wrap src))
      (broadcastInDim S850000x128 ![0, 1] bcast_S850000x1_S850000x128_0_1 (broadcastInDim S850000x1 ![0] bcast_S850000_S850000x1_0 norm))
  Host.scatterAdd scatter_S50000x128_S850000x1_S850000x128_1_0_0_1 (broadcastInDim S50000x128 ![] bcast_S_S50000x128 (constant S_ .f32 0x00000000#32))
    (broadcastInDim S850000x1 ![0] bcast_S850000_S850000x1_0 dst) msg

end Cert.KernelIdeal.Aggregate

end
-- ==== Proof.Stretches.lean ====
/-
  The host operations of the kernel's @main around its two regions, read as functions of what each stretch starts from.

  Before the first region @main aggregates the node features over the graph and reshapes the first bias to a row; between the
  regions it aggregates the first region's result over the same graph and reshapes the second bias. The aggregation is the same
  forty-two operations both times: it is the one function `aggregate`, and is never opened. Each fact below reads one buffer
  after a stretch: every operation's result at its own buffer is its function of its operands' buffers, and at any other buffer
  what was there before.
-/
import proofs.«176892_j3246995276080_1_alg».proof.Proof.Gen.KernelIdeal.Frame
import proofs.«176892_j3246995276080_1_alg».proof.Proof.Aggregate
import Idealize.ShloMosaic.Lib.StableHlo.Run

set_option maxRecDepth 16384

noncomputable section

namespace Cert.KernelIdeal.Stretches

open Cert.KernelIdeal Cert.KernelIdeal.Gen Cert.KernelIdeal.Aggregate
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

set_option maxHeartbeats 4000000 in
/-- The first region's activations: the node features aggregated over the graph. -/
theorem entry0_activations (c : Dev nD) :
    V1 m ρ c main_v41 = aggregate (m ((c : Thread nD τ).loc main_arg1)) (m ((c : Thread nD τ).loc main_arg2)) := by
  show StableHlo.after hostOps0 (W0 m ρ c) (Proc.devRef .tc main_v41) = _
  dsimp only [hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- The first region's weights are the argument: no operation of the stretch writes it. -/
theorem entry0_weights (c : Dev nD) : V1 m ρ c main_arg3 = m ((c : Thread nD τ).loc main_arg3) := by
  show StableHlo.after hostOps0 (W0 m ρ c) (Proc.devRef .tc main_arg3) = _
  dsimp only [hostOps0]
  after_results_simp

/-- The first region's bias row: the bias argument reshaped to one row. -/
theorem entry0_bias (c : Dev nD) :
    V1 m ρ c main_v42 = shapeCast S1x128 (m ((c : Thread nD τ).loc main_arg4)) shapeCasts_S128_S1x128 := by
  show StableHlo.after hostOps0 (W0 m ρ c) (Proc.devRef .tc main_v42) = _
  dsimp only [hostOps0]
  after_results_simp
  rfl

/-- The edge list reaches the second stretch as launched: neither the first stretch nor the first region writes it. -/
theorem exit0_edges (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  dsimp only [hostOps0]
  after_results_simp

/-! ## Between the regions -/

set_option maxHeartbeats 4000000 in
/-- The second region's activations: the first region's result aggregated over the same graph. -/
theorem entry1_activations (c : Dev nD) :
    V3 m ρ c main_v85 = aggregate (m ((c : Thread nD τ).loc main_arg1)) (V2 m ρ c main_v43) := by
  rw [← exit0_edges m ρ c]
  show StableHlo.after hostOps1 (W2 m ρ c) (Proc.devRef .tc main_v85) = _
  dsimp only [hostOps1]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- The second region's weights are the argument: nothing before the region writes it. -/
theorem entry1_weights (c : Dev nD) : V3 m ρ c main_arg5 = m ((c : Thread nD τ).loc main_arg5) := by
  have harg : W2 m ρ c (Proc.devRef .tc main_arg5) = m ((c : Thread nD τ).loc main_arg5) := by
    refine (W2_of_ne m ρ c main_arg5 (by decide)).trans ?_
    show StableHlo.after hostOps0 (W0 m ρ c) (Proc.devRef .tc main_arg5) = _
    dsimp only [hostOps0]
    after_results_simp
  refine Eq.trans ?_ harg
  show StableHlo.after hostOps1 (W2 m ρ c) (Proc.devRef .tc main_arg5) = _
  dsimp only [hostOps1]
  after_results_simp

/-- The second region's bias row: the second bias argument reshaped to one row; nothing before the stretch writes the argument. -/
theorem entry1_bias (c : Dev nD) :
    V3 m ρ c main_v86 = shapeCast S1x64 (m ((c : Thread nD τ).loc main_arg6)) shapeCasts_S64_S1x64 := by
  have harg : W2 m ρ c (Proc.devRef .tc main_arg6) = m ((c : Thread nD τ).loc main_arg6) := by
    refine (W2_of_ne m ρ c main_arg6 (by decide)).trans ?_
    show StableHlo.after hostOps0 (W0 m ρ c) (Proc.devRef .tc main_arg6) = _
    dsimp only [hostOps0]
    after_results_simp
  rw [← harg]
  show StableHlo.after hostOps1 (W2 m ρ c) (Proc.devRef .tc main_v86) = _
  dsimp only [hostOps1]
  after_results_simp
  rfl

end Cert.KernelIdeal.Stretches

end
-- ==== Proof.KernelValue.lean ====
/-
  The kernel program's result array as one function of its arguments, and its run restated with that function.

  Through @main: the node features are aggregated over the graph; the first region turns the aggregate into `reluAffine` of it, the
  first weights and the first bias as a row; that array is aggregated over the same graph; the second region turns the second
  aggregate into `affine` of it, the second weights and the second bias as a row. No argument array is written.
-/
import proofs.«176892_j3246995276080_1_alg».proof.Proof.RunNamed
import proofs.«176892_j3246995276080_1_alg».proof.Proof.HiddenLayer
import proofs.«176892_j3246995276080_1_alg».proof.Proof.OutputLayer
import proofs.«176892_j3246995276080_1_alg».proof.Proof.Stretches

set_option maxRecDepth 16384

noncomputable section

namespace Cert.KernelIdeal.Whole

open Cert.KernelIdeal Cert.KernelIdeal.Gen Cert.KernelIdeal.Dense Cert.KernelIdeal.Aggregate Cert.KernelIdeal.Stretches
open Idealize.ShloMosaic Idealize.ShloMosaic.TcCoe Idealize.SL.Sem

/-- Two graph-convolution layers: aggregate, dense layer floored at zero, aggregate, dense layer. -/
def twoLayers (E : (⟨S2x800000, .i32⟩ : BufTy).Contents (Elt Ideal)) (X : FVec Ideal S50000x128 .f32)
    (W0 : FVec Ideal S128x128 .f32) (b0 : FVec Ideal S128 .f32) (W1 : FVec Ideal S128x64 .f32) (b1 : FVec Ideal S64 .f32) : FVec Ideal S50000x64 .f32 :=
  affine (aggregate E (reluAffine (aggregate E X) W0 (shapeCast S1x128 b0 shapeCasts_S128_S1x128))) W1 (shapeCast S1x64 b1 shapeCasts_S64_S1x64)

variable (m : (ℓ : Loc nD τ sig) → Buf (Elt Ideal) ℓ) (ρ : Dev nD → PrngReg)

/-- What the first region leaves in its result array. -/
theorem hidden_array (c : Dev nD) :
    V2 m ρ c main_v43 = reluAffine (aggregate (m ((c : Thread nD τ).loc main_arg1)) (m ((c : Thread nD τ).loc main_arg2))) (m ((c : Thread nD τ).loc main_arg3)) (shapeCast S1x128 (m ((c : Thread nD τ).loc main_arg4)) shapeCasts_S128_S1x128) := by
  show W2 m ρ c (Proc.devRef .tc (Pipeline.arrRef spec0 3)) = _
  rw [W2_arr, HiddenLayer.final (V1 m ρ) c, entry0_activations m ρ c, entry0_weights m ρ c, entry0_bias m ρ c]

/-- What the second region leaves in its result array, the program's result. -/
theorem output_array (c : Dev nD) :
    W4 m ρ c (Proc.devRef .tc main_v87) = twoLayers (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show W4 m ρ c (Proc.devRef .tc (Pipeline.arrRef spec1 3)) = _
  rw [W4_arr, OutputLayer.final (V3 m ρ) c, entry1_activations m ρ c, entry1_weights m ρ c, entry1_bias m ρ c, hidden_array m ρ c]
  rfl

/-- The run: every weakly fair execution ends with the result array at `twoLayers` of the arguments, the arguments unchanged. -/
theorem run : θ_run defs (onTc (τ := τ) (main (F := Ideal))) ⟨m, fun _ => 0, ρ⟩ (fun r => ∀ c : Dev nD,
      r.2.mem ((c.tc : Thread nD τ).loc main_v87) = twoLayers (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (output_array m ρ c), (h c).2⟩) (Cert.KernelIdeal.Named.run m ρ)

end Cert.KernelIdeal.Whole

end
-- ==== Proof.RefValue.lean ====
/-
  The reference's result as the same composition the kernel computes: aggregate, dense layer floored at zero, aggregate, dense layer.

  The reference's run names its result as one long term of the arguments. Read from the outside in it is a sum of a host matrix product
  and a broadcast bias, whose left factor is the aggregation of (the maximum with zero of a host matrix product plus a broadcast bias,
  whose left factor is the aggregation of the node features). The aggregation is named once (`aggregate`, never opened); the two
  dense layers are read at an index: the host's product is the plain sum over the 128 contracted positions, and the bias broadcast
  through a unit row reads its own column. That makes them the whole-array functions `reluAffine` and `affine` of the bias reshaped to a row.
-/
import proofs.«176892_j3246995276080_1_alg».proof.Proof.Gen.ReferenceIdeal.Run
import proofs.«176892_j3246995276080_1_alg».proof.Proof.Gen.ReferenceIdeal.Read
import proofs.«176892_j3246995276080_1_alg».proof.Proof.Dense
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

variable {F : FTy → Type} [FloatOps F]

/-- Self-loops and symmetric degree normalisation, then the neighbourhood sum: with the edge list's two rows extended by every node's own
    index (`src`, `dst`), `deg` counts the edges arriving at each node, `dinv` is 1/√max(deg, 1), an edge's weight is
    `dinv[src]·dinv[dst]` (a negative index wraps by 50000 before each gather), and row v of the result is the sum over the edges
    arriving at v of that weight times the source's row of `X`. Every operation is the host's own; none is opened here. -/
def aggregate (E : (⟨S2x800000, .i32⟩ : BufTy).Contents (Elt F)) (X : (⟨S50000x128, .f32⟩ : BufTy).Contents (Elt F)) :
    (⟨S50000x128, .f32⟩ : BufTy).Contents (Elt F) :=
  let ids : (⟨S50000, .i32⟩ : BufTy).Contents (Elt F) := iotaInDim S50000 32 0
  let src : (⟨S850000, .i32⟩ : BufTy).Contents (Elt F) :=
    concatenate S850000 0 [⟨S800000, shapeCast _ (extractStridedSlice S1x800000 ![0, 0] E slices_S2x800000_S1x800000_0_0) shapeCasts_S1x800000_S800000⟩, ⟨S50000, ids⟩] concatenates_S800000_S50000_S850000_d0
  let dst : (⟨S850000, .i32⟩ : BufTy).Contents (Elt F) :=
    concatenate S850000 0 [⟨S800000, shapeCast _ (extractStridedSlice S1x800000 ![1, 0] E slices_S2x800000_S1x800000_1_0) shapeCasts_S1x800000_S800000⟩, ⟨S50000, ids⟩] concatenates_S800000_S50000_S850000_d0
  let wrap : (⟨S850000, .i32⟩ : BufTy).Contents (Elt F) → (⟨S850000x1, .i32⟩ : BufTy).Contents (Elt F) := fun v =>
    broadcastInDim S850000x1 ![0] bcast_S850000_S850000x1_0
      (select (cmpi .slt v (broadcastInDim S850000 ![] bcast_S_S850000 (constantI S_ 32 0#32))) (addi v (broadcastInDim S850000 ![] bcast_S_S850000 (constantI S_ 32 50000#32))) v)
  let deg : (⟨S50000, .f32⟩ : BufTy).Contents (Elt F) :=
    Host.scatterAdd scatter_S50000_S850000x1_S850000_n_0_0_1 (broadcastInDim S50000 ![] bcast_S_S50000 (constant S_ .f32 0x00000000#32))
      (broadcastInDim S850000x1 ![0] bcast_S850000_S850000x1_0 dst) (broadcastInDim S850000 ![] bcast_S_S850000 (constant S_ .f32 0x3F800000#32))
  let dinv : (⟨S50000, .f32⟩ : BufTy).Contents (Elt F) :=
    Host.rsqrt (maximumf deg (broadcastInDim S50000 ![] bcast_S_S50000 (constant S_ .f32 0x3F800000#32)))
  let norm : (⟨S850000, .f32⟩ : BufTy).Contents (Elt F) :=
    mulf (Host.gather gather_S50000_S850000x1_S850000_n_0_n_n_0_1_1 dinv (wrap src)) (Host.gather gather_S50000_S850000x1_S850000_n_0_n_n_0_1_1 dinv (wrap dst))
  let msg : (⟨S850000x128, .f32⟩ : BufTy).Contents (Elt F) :=
    mulf (Host.gather gather_S50000x128_S850000x1_S850000x128_1_0_n_n_0_1_1128 X (wrap src))
      (broadcastInDim S850000x128 ![0, 1] bcast_S850000x1_S850000x128_0_1 (broadcastInDim S850000x1 ![0] bcast_S850000_S850000x1_0 norm))
  Host.scatterAdd scatter_S50000x128_S850000x1_S850000x128_1_0_0_1 (broadcastInDim S50000x128 ![] bcast_S_S50000x128 (constant S_ .f32 0x00000000#32))
    (broadcastInDim S850000x1 ![0] bcast_S850000_S850000x1_0 dst) msg

/-- The first dense layer as the host computes it: product, bias broadcast through a unit row, maximum with the zero splat. -/
def hostHidden (A : (⟨S50000x128, .f32⟩ : BufTy).Contents (Elt F)) (W : (⟨S128x128, .f32⟩ : BufTy).Contents (Elt F)) (b : (⟨S128, .f32⟩ : BufTy).Contents (Elt F)) :
    (⟨S50000x128, .f32⟩ : BufTy).Contents (Elt F) :=
  maximumf (addf (Host.dotGeneral dot_S50000x128_S128x128_S50000x128_1_0_0_1_n_n none A W)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The second dense layer as the host computes it: product and bias broadcast through a unit row. -/
def hostOutput (A : (⟨S50000x128, .f32⟩ : BufTy).Contents (Elt F)) (W : (⟨S128x64, .f32⟩ : BufTy).Contents (Elt F)) (b : (⟨S64, .f32⟩ : BufTy).Contents (Elt F)) :
    (⟨S50000x64, .f32⟩ : BufTy).Contents (Elt F) :=
  addf (Host.dotGeneral dot_S50000x128_S128x64_S50000x64_1_0_0_1_n_n none A W)
    (broadcastInDim S50000x64 ![0, 1] bcast_S1x64_S50000x64_0_1 (broadcastInDim S1x64 ![1] bcast_S64_S1x64_1 b))

set_option maxHeartbeats 1000000 in
/-- The run's result term IS that composition of the arguments: the two spellings differ only by the names above. -/
theorem result_shape (m : (ℓ : Loc nD τ sig) → Buf (Elt F) ℓ) (c : Dev nD) :
    res_main_v92 m c
      = hostOutput (aggregate (m ((c.tc : Thread nD τ).loc main_arg1))
          (hostHidden (aggregate (m ((c.tc : Thread nD τ).loc main_arg1)) (m ((c.tc : Thread nD τ).loc main_arg2)))
            (m ((c.tc : Thread nD τ).loc main_arg3)) (m ((c.tc : Thread nD τ).loc main_arg4))))
          (m ((c.tc : Thread nD τ).loc main_arg5)) (m ((c.tc : Thread nD τ).loc main_arg6)) := by
  unfold res_main_v92 hostOutput hostHidden aggregate
  rfl

/-! ## The two host layers read at an index -/

/-- The host's [50000,128] × [128,128] product at row p, column q: the sum over k of A[p,k]·W[k,q]. -/
theorem productA_apply (A : FVec Ideal S50000x128 .f32) (W : FVec Ideal S128x128 .f32) (p : Fin 50000) (q : Fin 128) :
    Host.dotGeneral (F := Ideal) dot_S50000x128_S128x128_S50000x128_1_0_0_1_n_n none A W (ix2 p q) = ∑ k : Fin 128, A (ix2 p k) * W (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact Read.lhs_main_v42_0 _ _
    | ⟨1, _⟩ => exact (Read.lhs_main_v42_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (Read.rhs_main_v42_0 _ _).trans hk
    | ⟨1, _⟩ => exact Read.rhs_main_v42_1 _ _)
  rw [el, er]

/-- The host's [50000,128] × [128,64] product at row p, column q. -/
theorem productB_apply (A : FVec Ideal S50000x128 .f32) (W : FVec Ideal S128x64 .f32) (p : Fin 50000) (q : Fin 64) :
    Host.dotGeneral (F := Ideal) dot_S50000x128_S128x64_S50000x64_1_0_0_1_n_n none A W (ix2 p q) = ∑ k : Fin 128, A (ix2 p k) * W (ix2 k q) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 p q) ((ValueIdx.contrEquiv1 dot_S50000x128_S128x64_S50000x64_1_0_0_1_n_n 128 rfl rfl).symm k) = ix2 p k := funext fun a => Fin.ext (by
    match a with
    | ⟨0, _⟩ => exact Read.lhs_main_v89_0 _ _
    | ⟨1, _⟩ => exact (Read.lhs_main_v89_1 _ _).trans hk)
  have er : dot_S50000x128_S128x64_S50000x64_1_0_0_1_n_n.rhsIdx (ix2 p q) ((ValueIdx.contrEquiv1 dot_S50000x128_S128x64_S50000x64_1_0_0_1_n_n 128 rfl rfl).symm k) = ix2 k q := funext fun a => Fin.ext (by
    match a with
    | ⟨0, _⟩ => exact (Read.rhs_main_v89_0 _ _).trans hk
    | ⟨1, _⟩ => exact Read.rhs_main_v89_1 _ _)
  rw [el, er]

/-- The 128-entry bias broadcast to a unit row and then down the rows reads its own column … -/
theorem biasA_apply (b : FVec Ideal S128 .f32) (p : Fin 50000) (q : Fin 128) :
    broadcastInDim S50000x128 ![0, 1] bcast_S1x128_S50000x128_0_1 (broadcastInDim S1x128 ![1] bcast_S128_S1x128_1 b) (ix2 p q) = b (ix1 q) :=
  (broadcastInDim_apply _ bcast_S1x128_S50000x128_0_1 (broadcastInDim S1x128 ![1] bcast_S128_S1x128_1 b) (ix2 p q) (ix2 0 q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])).trans
    (broadcastInDim_apply _ bcast_S128_S1x128_1 b (ix2 0 q) (ix1 q) (fun a => match a with
      | ⟨0, _⟩ => by show q.val = if (128 : Nat) = 1 then 0 else q.val; rw [if_neg (by decide)]))

/-- … and so does the 64-entry one. -/
theorem biasB_apply (b : FVec Ideal S64 .f32) (p : Fin 50000) (q : Fin 64) :
    broadcastInDim S50000x64 ![0, 1] bcast_S1x64_S50000x64_0_1 (broadcastInDim S1x64 ![1] bcast_S64_S1x64_1 b) (ix2 p q) = b (ix1 q) :=
  (broadcastInDim_apply _ bcast_S1x64_S50000x64_0_1 (broadcastInDim S1x64 ![1] bcast_S64_S1x64_1 b) (ix2 p q) (ix2 0 q) (fun a => match a with
      | ⟨0, _⟩ => by show (0 : Nat) = if (1 : Nat) = 1 then 0 else p.val; rw [if_pos rfl]
      | ⟨1, _⟩ => by show q.val = if (64 : Nat) = 1 then 0 else q.val; rw [if_neg (by decide)])).trans
    (broadcastInDim_apply _ bcast_S64_S1x64_1 b (ix2 0 q) (ix1 q) (fun a => match a with
      | ⟨0, _⟩ => by show q.val = if (64 : Nat) = 1 then 0 else q.val; rw [if_neg (by decide)]))

/-- A vector reshaped to one row, read in that row, is the vector at the column. -/
theorem rowA_apply (b : FVec Ideal S128 .f32) (h : S128.ShapeCasts S1x128) (q : Fin 128) :
    shapeCast S1x128 b h (ix2 0 q) = b (ix1 q) :=
  shapeCast_apply b h (ix2 0 q) (ix1 q) (by
    rw [Shape.rowMajor_val_one, Shape.rowMajor_val_two]
    show q.val = 0 * 128 + q.val
    omega)
theorem rowB_apply (b : FVec Ideal S64 .f32) (h : S64.ShapeCasts S1x64) (q : Fin 64) :
    shapeCast S1x64 b h (ix2 0 q) = b (ix1 q) :=
  shapeCast_apply b h (ix2 0 q) (ix1 q) (by
    rw [Shape.rowMajor_val_one, Shape.rowMajor_val_two]
    show q.val = 0 * 64 + q.val
    omega)

/-- The host's first layer is `reluAffine` of the bias reshaped to a row. -/
theorem hostHidden_eq (A : FVec Ideal S50000x128 .f32) (W : FVec Ideal S128x128 .f32) (b : FVec Ideal S128 .f32) (h : S128.ShapeCasts S1x128) :
    hostHidden (F := Ideal) A W b = Cert.KernelIdeal.Dense.reluAffine A W (shapeCast S1x128 b h) := by
  funext i
  obtain ⟨p, q, rfl⟩ : ∃ (p : Fin 50000) (q : Fin 128), i = ix2 p q := ⟨i 0, i 1, eq_ix2 i⟩
  show max (Host.dotGeneral (F := Ideal) dot_S50000x128_S128x128_S50000x128_1_0_0_1_n_n none A W (ix2 p q)
        + broadcastInDim S50000x128 ![0, 1] bcast_S1x128_S50000x128_0_1 (broadcastInDim S1x128 ![1] bcast_S128_S1x128_1 b) (ix2 p q)) (Ideal.ofBits .f32 0x00000000#32)
      = max ((∑ k : Fin 128, A (ix2 p k) * W (ix2 k q)) + shapeCast S1x128 b h (ix2 0 q)) (Ideal.ofBits .f32 0x00000000#32)
  rw [productA_apply, biasA_apply, rowA_apply]

/-- The host's second layer is `affine` of the bias reshaped to a row. -/
theorem hostOutput_eq (A : FVec Ideal S50000x128 .f32) (W : FVec Ideal S128x64 .f32) (b : FVec Ideal S64 .f32) (h : S64.ShapeCasts S1x64) :
    hostOutput (F := Ideal) A W b = Cert.KernelIdeal.Dense.affine A W (shapeCast S1x64 b h) := by
  funext i
  obtain ⟨p, q, rfl⟩ : ∃ (p : Fin 50000) (q : Fin 64), i = ix2 p q := ⟨i 0, i 1, eq_ix2 i⟩
  show Host.dotGeneral (F := Ideal) dot_S50000x128_S128x64_S50000x64_1_0_0_1_n_n none A W (ix2 p q)
        + broadcastInDim S50000x64 ![0, 1] bcast_S1x64_S50000x64_0_1 (broadcastInDim S1x64 ![1] bcast_S64_S1x64_1 b) (ix2 p q)
      = (∑ k : Fin 128, A (ix2 p k) * W (ix2 k q)) + shapeCast S1x64 b h (ix2 0 q)
  rw [productB_apply, biasB_apply, rowB_apply]

end Cert.ReferenceIdeal.RefValue

end
-- ==== Proof.Bridge.lean ====
/-
  The two programs' aggregations are one function: the reference's, written over its own printed shapes and dimension records, and the
  kernel program's, written over its own, are the same operations on the same literal shapes.
-/
import proofs.«176892_j3246995276080_1_alg».proof.Proof.Aggregate
import proofs.«176892_j3246995276080_1_alg».proof.Proof.RefValue

noncomputable section

namespace Cert.Proof.Bridge

open Idealize.ShloMosaic

variable {F : FTy → Type} [FloatOps F]

set_option maxHeartbeats 400000 in
theorem aggregate_eq (E : (⟨Cert.KernelIdeal.S2x800000, .i32⟩ : BufTy).Contents (Elt F)) (X : (⟨Cert.KernelIdeal.S50000x128, .f32⟩ : BufTy).Contents (Elt F)) :
    Cert.ReferenceIdeal.RefValue.aggregate (F := F) E X = Cert.KernelIdeal.Aggregate.aggregate (F := F) E X := rfl

end Cert.Proof.Bridge

end
-- ==== Proof.lean ====
/-
  Two stacked graph-convolution layers on 50000 nodes and 850000 edges (the 800000 given ones and a self-loop per node):
  each layer aggregates its input features over the graph with symmetric degree normalisation and applies a dense layer,
  128 → 128 floored at zero, then 128 → 64. The kernel program runs the aggregation on the host and each dense layer as a
  pipelined region over 25 blocks of 2000 rows, its factors rounded to bf16 on the way into the matrix unit; the reference runs
  everything on the host.

  Over the extended reals the two agree entry by entry, and no finiteness is needed:
  * the aggregation is the same forty-two host operations in both programs, so it is carried as ONE function of the edge list and a
    feature array and never opened (`Aggregate.aggregate`, `RefValue.aggregate`, identified in `Bridge`);
  * a dense layer's entry (i, j) is ∑ₖ A[i,k]·W[k,j] + b[j] (floored at zero in the first layer) on both sides: rounding to bf16 is the
    identity, the matrix unit's product into a zero accumulator and the host's product are the same sum over the 128 contracted
    positions, the kernel's bias row broadcast down the rows and the host's bias broadcast through a unit row read the same entry
    (`Dense`, `RefValue`);
  * the 25 row blocks a region writes back tile the result array, so after each region its array is that whole-array function of what the
    region found (`HiddenLayer`, `OutputLayer`), and the host stretches before and between the regions hand the regions the aggregates
    (`Stretches`); `KernelValue` composes these into the kernel program's run with its result named.
  The word-level kernel and the idealized kernel run, terminate and leave their arguments unchanged by the generated frame of the two
  regions; the reference by its generated run. The idealization rewrote nothing, so there is nothing to preserve.
-/
import proofs.«176892_j3246995276080_1_alg».proof.Defs
import proofs.«176892_j3246995276080_1_alg».proof.Proof.Gen.Kernel
import proofs.«176892_j3246995276080_1_alg».proof.Proof.Gen.Kernel.Frame
import proofs.«176892_j3246995276080_1_alg».proof.Proof.Gen.KernelIdeal
import proofs.«176892_j3246995276080_1_alg».proof.Proof.Gen.KernelIdeal.Frame
import proofs.«176892_j3246995276080_1_alg».proof.Proof.Gen.ReferenceIdeal
import proofs.«176892_j3246995276080_1_alg».proof.Proof.Gen.Pre_finite_inputs
import proofs.«176892_j3246995276080_1_alg».proof.Proof.Gen.ReferenceIdeal.Run
import proofs.«176892_j3246995276080_1_alg».proof.Proof.Gen.ReferenceIdeal.Read
import proofs.«176892_j3246995276080_1_alg».proof.Proof.KernelValue
import proofs.«176892_j3246995276080_1_alg».proof.Proof.RefValue
import proofs.«176892_j3246995276080_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `twoLayers` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨-, h1, h2, h3, h4, h5, h6⟩ := hagree c
  rw [Cert.ReferenceIdeal.RefValue.result_shape, h1, h2, h3, h4, h5, h6,
    Cert.ReferenceIdeal.RefValue.hostOutput_eq _ _ _ Cert.KernelIdeal.Gen.shapeCasts_S64_S1x64,
    Cert.ReferenceIdeal.RefValue.hostHidden_eq _ _ _ Cert.KernelIdeal.Gen.shapeCasts_S128_S1x128,
    Cert.Proof.Bridge.aggregate_eq, Cert.Proof.Bridge.aggregate_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
